-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩

abbrev nBuf : Space → Nat
  | .hbm => 45
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S100000, .f32⟩
  | .hbm, ⟨15, _⟩ => ⟨S128x128, .f32⟩
  | .hbm, ⟨16, _⟩ => ⟨S1x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S100000, .f32⟩
  | .hbm, ⟨15, _⟩ => ⟨S128x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Blocks.lean ====
/-
  The two kernel bodies' stored values read at an entry, over the extended reals.

  The projection body stores, at row `p` and column `q` of its block, the sum over `k` of the row block's entry
  `(p, k)` times the weight block's entry `(k, q)`, plus the bias row's entry `q`: the change of float format before
  the product is the identity on extended reals, and the product accumulates into a zero splat.
  The combine body stores, at `(p, q)`, `d·a + (d·d)·h` with `d` the scale column's entry of row `p` and `a`, `h`
  the two full blocks' entries at `(p, q)`.
-/
import proofs.«152773_j19902878450413_1_alg».proof.Proof.Gen.KernelIdeal.Skeleton
import proofs.«152773_j19902878450413_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx

/-! ## The projection body: a matrix product of the row block with the weight block, plus the bias row -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry `(p, q)`: the sum over the contracted axis. -/
theorem matmul_block {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The projection body's stored value at entry `(p, q)`. -/
theorem linear_pay (v0 : Vec Ideal S5000x128 .f32) (v2 : Vec Ideal S128x128 .f32) (v6 : Vec Ideal S1x128 .f32)
    (p : Fin 5000) (q : Fin 128) :
    k0_pay1 (F := Ideal) v0 v2 v6 (ix2 p q) = (∑ k : Fin 128, v0 (ix2 p k) * v2 (ix2 k q)) + v6 (ix2 (0 : Fin 1) q) := by
  unfold k0_pay1
  refine (addf_apply _ _ _).trans ?_
  refine congrArg₂ (· + ·) ?_ ?_
  · refine (matmul_block _ _ p q).trans ?_
    refine Finset.sum_congr rfl fun k _ => ?_
    refine congrArg₂ (· * ·) (truncf_apply (ψ := .bf16) v0 Facts₀.bitsLt_bf16_f32 (ix2 p k)) ?_
    refine (truncf_apply (ψ := .bf16) (shapeCast S128x128 v2 Facts₀.shapeCasts_S128x128_S128x128) Facts₀.bitsLt_bf16_f32 (ix2 k q)).trans ?_
    exact congrFun (shapeCast_self v2 Facts₀.shapeCasts_S128x128_S128x128) (ix2 k q)
  · refine (broadcastTo_1b_ab_apply _ _ p q).trans ?_
    exact congrFun (shapeCast_self v6 _) _

/-! ## The combine body: the scale column broadcast along the rows' entries -/

/-- The combine body's stored value at entry `(p, q)`. -/
theorem combine_pay (v0 : Vec Ideal S5000x1 .f32) (v7 : Vec Ideal S5000x128 .f32) (v10 : Vec Ideal S5000x128 .f32)
    (p : Fin 5000) (q : Fin 128) :
    k1_pay1 (F := Ideal) v0 v7 v10 (ix2 p q)
      = v0 (ix2 p (0 : Fin 1)) * v7 (ix2 p q) + (v0 (ix2 p (0 : Fin 1)) * v0 (ix2 p (0 : Fin 1))) * v10 (ix2 p q) := by
  unfold k1_pay1
  refine (addf_apply _ _ _).trans ?_
  refine congrArg₂ (· + ·) ?_ ?_
  · refine (mulf_apply _ _ _).trans ?_
    refine congrArg₂ (· * ·) ?_ ?_
    · refine (broadcastTo_a1_ab_apply _ _ p q).trans ?_
      refine (congrFun (shapeCast_self _ _) _).trans ?_
      exact congrFun (shapeCast_self v0 _) _
    · exact congrFun (shapeCast_self v7 _) _
  · refine (mulf_apply _ _ _).trans ?_
    refine congrArg₂ (· * ·) ?_ ?_
    · refine (broadcastTo_a1_ab_apply _ _ p q).trans ?_
      refine (congrFun (shapeCast_self _ _) _).trans ?_
      refine (mulf_apply _ _ _).trans ?_
      have e : shapeCast S5000x1 v0 Facts₀.shapeCasts_S5000x1_S5000x1 (ix2 p (0 : Fin 1)) = v0 (ix2 p (0 : Fin 1)) :=
        congrFun (shapeCast_self v0 _) _
      rw [e]
    · exact congrFun (shapeCast_self v10 _) _

end Cert.KernelIdeal.Blocks

end
-- ==== Proof.Spec.lean ====
/-
  What the program computes, entry by entry, over the extended reals.

  `proj x wt b2` is the dense projection `h = x·wt + b2`: entry `(r, q)` is the sum over `k` of `x (r, k) · wt (k, q)`
  plus the bias row's entry `q` (`wt` is the weight matrix already transposed, `b2` the bias as a one-row matrix).
  `combine d a h` is the degree-normalised sum `d·a + (d·d)·h`: entry `(r, q)` scales the aggregated messages `a` by the
  node's inverse square-root degree `d (r, 0)` and the node's own projected features `h` by its square.
-/
import Idealize.ShloMosaic.PureOps.Ideal
import Idealize.ShloMosaic.Lib.ValueIdx

noncomputable section

namespace Cert.Spec

open Idealize.ShloMosaic Idealize.ShloMosaic.ValueIdx

/-- The projection at row `r`, column `q`. -/
def projAt (x : (⟨2, ![100000, 128]⟩ : Shape).Idx → EReal) (wt : (⟨2, ![128, 128]⟩ : Shape).Idx → EReal)
    (b2 : (⟨2, ![1, 128]⟩ : Shape).Idx → EReal) (r : Fin 100000) (q : Fin 128) : EReal :=
  (∑ k : Fin 128, x (ix2 r k) * wt (ix2 k q)) + b2 (ix2 (0 : Fin 1) q)

/-- The projected features as one array. -/
def proj (x : (⟨2, ![100000, 128]⟩ : Shape).Idx → EReal) (wt : (⟨2, ![128, 128]⟩ : Shape).Idx → EReal)
    (b2 : (⟨2, ![1, 128]⟩ : Shape).Idx → EReal) : (⟨2, ![100000, 128]⟩ : Shape).Idx → EReal :=
  fun i => projAt x wt b2 (i 0) (i 1)

/-- The normalised combination at row `r`, column `q`. -/
def combineAt (d : (⟨2, ![100000, 1]⟩ : Shape).Idx → EReal) (a h : (⟨2, ![100000, 128]⟩ : Shape).Idx → EReal)
    (r : Fin 100000) (q : Fin 128) : EReal :=
  d (ix2 r (0 : Fin 1)) * a (ix2 r q) + (d (ix2 r (0 : Fin 1)) * d (ix2 r (0 : Fin 1))) * h (ix2 r q)

/-- The normalised combination as one array. -/
def combine (d : (⟨2, ![100000, 1]⟩ : Shape).Idx → EReal) (a h : (⟨2, ![100000, 128]⟩ : Shape).Idx → EReal) :
    (⟨2, ![100000, 128]⟩ : Shape).Idx → EReal :=
  fun i => combineAt d a h (i 0) (i 1)

end Cert.Spec

end
-- ==== Proof.Linear.lean ====
/-
  The first kernel region (the dense projection), read as a value: whatever the arrays hold when the region is entered,
  its output array ends holding `Spec.proj` of the three input arrays.

  Grid point `t` (of 20) works on rows `5000·t … 5000·t + 4999`: the row block of the features, the whole weight
  matrix and the whole bias row come in, and the body's stored block is the matrix product plus the bias row, which is
  the same rows of `Spec.proj`. The 20 row blocks tile the output array: row `r` lies in the block of point `r / 5000`.
-/
import proofs.«152773_j19902878450413_1_alg».proof.Proof.Gen.KernelIdeal.Frame
import proofs.«152773_j19902878450413_1_alg».proof.Proof.Blocks
import proofs.«152773_j19902878450413_1_alg».proof.Proof.Spec
import Idealize.ShloMosaic.Lib.Pipeline.Value

set_option maxRecDepth 16384

noncomputable section

namespace Cert.KernelIdeal.Linear

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block `t` of the rows, the weight and bias
    windows always at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000·t + p` of the array. -/
def rowOf (t : Fin cfg0.N) (p : Fin 5000) : Fin 100000 :=
  ⟨t.val * 5000 + p.val, by have h1 : t.val < 20 := lt_of_lt_of_eq t.isLt N_0; have h2 := p.isLt; omega⟩

/-- The feature window's block at point `t`: rows `5000·t …` of the feature array. -/
theorem xblk_apply (c : Dev nD) (t : Fin cfg0.N) (p : Fin 5000) (k : Fin 128) :
    (iblk0 V c 0 t : Vec Ideal S5000x128 .f32) (ix2 p k) = (V c main_arg0 : S100000x128.Idx → EReal) (ix2 (rowOf t p) k) := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e00]; omega
  | ⟨1, _⟩ => show win0_0.index t 1 * 128 + 1 * k.val = k.val; rw [e01]; omega

/-- The weight window's block at any point is the whole transposed weight matrix. -/
theorem wblk_apply (c : Dev nD) (t : Fin cfg0.N) (k : Fin 128) (q : Fin 128) :
    (iblk0 V c 1 t : Vec Ideal S128x128 .f32) (ix2 k q) = (V c main_v9 : S128x128.Idx → EReal) (ix2 k q) := by
  obtain ⟨-, -, e10, e11, -⟩ := idx_facts t
  unfold iblk0
  rw [View.read_apply]
  show V c main_v9 _ = V c main_v9 _
  congr 1
  funext a
  apply Fin.ext
  match a with
  | ⟨0, _⟩ => show win0_1.index t 0 * 128 + 1 * k.val = k.val; rw [e10]; omega
  | ⟨1, _⟩ => show win0_1.index t 1 * 128 + 1 * q.val = q.val; rw [e11]; omega

/-- The bias window's block at any point is the whole bias row. -/
theorem bblk_apply (c : Dev nD) (t : Fin cfg0.N) (q : Fin 128) :
    (iblk0 V c 2 t : Vec Ideal S1x128 .f32) (ix2 (0 : Fin 1) q) = (V c main_v10 : S1x128.Idx → EReal) (ix2 (0 : Fin 1) q) := by
  obtain ⟨-, -, -, -, e20, e21, -⟩ := idx_facts t
  unfold iblk0
  rw [View.read_apply]
  show V c main_v10 _ = V c main_v10 _
  congr 1
  funext a
  apply Fin.ext
  match a with
  | ⟨0, _⟩ => show win0_2.index t 0 * 1 + 1 * 0 = 0; rw [e20]
  | ⟨1, _⟩ => show win0_2.index t 1 * 128 + 1 * q.val = q.val; rw [e21]; omega

/-- Entry `(p, q)` of point `t`'s output block sits at `(5000·t + p, q)` of the output array. -/
theorem oblk_emb (t : Fin cfg0.N) (p : Fin 5000) (q : Fin 128) :
    ((cfg0.win 3).blk t).view.emb (ix2 p q) = (ix2 (rowOf t p) q : S100000x128.Idx) := by
  obtain ⟨-, -, -, -, -, -, e30, e31⟩ := idx_facts t
  funext a
  apply Fin.ext
  match a with
  | ⟨0, _⟩ => show win0_3.index t 0 * 5000 + 1 * p.val = t.val * 5000 + p.val; rw [e30]; omega
  | ⟨1, _⟩ => show win0_3.index t 1 * 128 + 1 * q.val = q.val; rw [e31]; omega

/-- What point `t` writes back is block `t` of the projection of the arrays the region was entered with. -/
theorem flushed_eq (c : Dev nD) (t : Fin cfg0.N) :
    (dat0 V c).flushed 3 t
      = ((cfg0.win 3).blk t).view.read (Elt Ideal) (Spec.proj (V c main_arg0) (V c main_v9) (V c main_v10)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Spec.proj (V c main_arg0) (V c main_v9) (V c main_v10) (((cfg0.win 3).blk t).view.emb (ix2 p q))
  refine (linear_pay (iblk0 V c 0 t) (iblk0 V c 1 t) (iblk0 V c 2 t) p q).trans ?_
  rw [oblk_emb t p q]
  show _ = Spec.projAt (V c main_arg0) (V c main_v9) (V c main_v10) (rowOf t p) q
  unfold Spec.projAt
  refine congrArg₂ (· + ·) (Finset.sum_congr rfl fun k _ => congrArg₂ (· * ·) (xblk_apply V c t p k) (wblk_apply V c t k q)) (bblk_apply V c t q)

/-- An index of the output array is in point `t`'s block iff its row is among that point's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Every index of the output array lies in some point's block: row `r` in that of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by rw [show cfg0.N = 20 from N_0]; omega
  obtain ⟨-, -, -, -, -, -, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e31]; omega

/-- The first region's output array after the region: the projection of the arrays it was entered with. -/
theorem final (c : Dev nD) :
    (dat0 V c).arrAt 3 cfg0.N = Spec.proj (V c main_arg0) (V c main_v9) (V c main_v10) :=
  (dat0 V c).arrAt_eq_of_cover 3 _ (fun t _ => flushed_eq V c t) cover

end Cert.KernelIdeal.Linear

end
-- ==== Proof.Combine.lean ====
/-
  The second kernel region (the degree-normalised combination), read as a value: whatever the arrays hold when the
  region is entered, its output array ends holding `Spec.combine` of the three input arrays.

  Grid point `t` (of 20) works on rows `5000·t … 5000·t + 4999` of all four arrays: the scale column's rows and the
  two full-width arrays' rows come in, and the body's stored block is `d·a + (d·d)·h` row by row, which is the same rows
  of `Spec.combine`. The 20 row blocks tile the output array.
-/
import proofs.«152773_j19902878450413_1_alg».proof.Proof.Gen.KernelIdeal.Frame
import proofs.«152773_j19902878450413_1_alg».proof.Proof.Blocks
import proofs.«152773_j19902878450413_1_alg».proof.Proof.Spec
import Idealize.ShloMosaic.Lib.Pipeline.Value

set_option maxRecDepth 16384

noncomputable section

namespace Cert.KernelIdeal.Combine

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window is at block `t` of the rows and block 0 of the columns. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `5000·t + p` of the array. -/
def rowOf (t : Fin cfg1.N) (p : Fin 5000) : Fin 100000 :=
  ⟨t.val * 5000 + p.val, by have h1 : t.val < 20 := lt_of_lt_of_eq t.isLt N_1; have h2 := p.isLt; omega⟩

/-- The scale column's block at point `t`: rows `5000·t …` of the column. -/
theorem dblk_apply (c : Dev nD) (t : Fin cfg1.N) (p : Fin 5000) :
    (iblk1 V c 0 t : Vec Ideal S5000x1 .f32) (ix2 p (0 : Fin 1)) = (V c main_v32 : S100000x1.Idx → EReal) (ix2 (rowOf t p) (0 : Fin 1)) := by
  obtain ⟨e00, e01, -⟩ := idx_facts t
  unfold iblk1
  rw [View.read_apply]
  show V c main_v32 _ = V c main_v32 _
  congr 1
  funext a
  apply Fin.ext
  match a with
  | ⟨0, _⟩ => show win1_0.index t 0 * 5000 + 1 * p.val = t.val * 5000 + p.val; rw [e00]; omega
  | ⟨1, _⟩ => show win1_0.index t 1 * 1 + 1 * 0 = 0; rw [e01]

/-- The aggregated messages' block at point `t`: rows `5000·t …`. -/
theorem ablk_apply (c : Dev nD) (t : Fin cfg1.N) (p : Fin 5000) (q : Fin 128) :
    (iblk1 V c 1 t : Vec Ideal S5000x128 .f32) (ix2 p q) = (V c main_v31 : S100000x128.Idx → EReal) (ix2 (rowOf t p) q) := by
  obtain ⟨-, -, e10, e11, -⟩ := idx_facts t
  unfold iblk1
  rw [View.read_apply]
  show V c main_v31 _ = V c main_v31 _
  congr 1
  funext a
  apply Fin.ext
  match a with
  | ⟨0, _⟩ => show win1_1.index t 0 * 5000 + 1 * p.val = t.val * 5000 + p.val; rw [e10]; omega
  | ⟨1, _⟩ => show win1_1.index t 1 * 128 + 1 * q.val = q.val; rw [e11]; omega

/-- The projected features' block at point `t`: rows `5000·t …`. -/
theorem hblk_apply (c : Dev nD) (t : Fin cfg1.N) (p : Fin 5000) (q : Fin 128) :
    (iblk1 V c 2 t : Vec Ideal S5000x128 .f32) (ix2 p q) = (V c main_v11 : S100000x128.Idx → EReal) (ix2 (rowOf t p) q) := by
  obtain ⟨-, -, -, -, e20, e21, -⟩ := idx_facts t
  unfold iblk1
  rw [View.read_apply]
  show V c main_v11 _ = V c main_v11 _
  congr 1
  funext a
  apply Fin.ext
  match a with
  | ⟨0, _⟩ => show win1_2.index t 0 * 5000 + 1 * p.val = t.val * 5000 + p.val; rw [e20]; omega
  | ⟨1, _⟩ => show win1_2.index t 1 * 128 + 1 * q.val = q.val; rw [e21]; omega

/-- Entry `(p, q)` of point `t`'s output block sits at `(5000·t + p, q)` of the output array. -/
theorem oblk_emb (t : Fin cfg1.N) (p : Fin 5000) (q : Fin 128) :
    ((cfg1.win 3).blk t).view.emb (ix2 p q) = (ix2 (rowOf t p) q : S100000x128.Idx) := by
  obtain ⟨-, -, -, -, -, -, e30, e31⟩ := idx_facts t
  funext a
  apply Fin.ext
  match a with
  | ⟨0, _⟩ => show win1_3.index t 0 * 5000 + 1 * p.val = t.val * 5000 + p.val; rw [e30]; omega
  | ⟨1, _⟩ => show win1_3.index t 1 * 128 + 1 * q.val = q.val; rw [e31]; omega

/-- What point `t` writes back is block `t` of the combination of the arrays the region was entered with. -/
theorem flushed_eq (c : Dev nD) (t : Fin cfg1.N) :
    (dat1 V c).flushed 3 t
      = ((cfg1.win 3).blk t).view.read (Elt Ideal) (Spec.combine (V c main_v32) (V c main_v31) (V c main_v11)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Spec.combine (V c main_v32) (V c main_v31) (V c main_v11) (((cfg1.win 3).blk t).view.emb (ix2 p q))
  refine (combine_pay (iblk1 V c 0 t) (iblk1 V c 1 t) (iblk1 V c 2 t) p q).trans ?_
  rw [oblk_emb t p q]
  show _ = Spec.combineAt (V c main_v32) (V c main_v31) (V c main_v11) (rowOf t p) q
  unfold Spec.combineAt
  rw [dblk_apply V c t p, ablk_apply V c t p q, hblk_apply V c t p q]

/-- An index of the output array is in point `t`'s block iff its row is among that point's 5000 rows. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v33).slice (win1_3.rect t)).set ↔ _
  rw [View.set_slice_whole, Rect.mem_set_unit]
  exact Iff.rfl

/-- Every index of the output array lies in some point's block: row `r` in that of point `r / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < cfg1.N := by rw [show cfg1.N = 20 from N_1]; omega
  obtain ⟨-, -, -, -, -, -, e30, e31⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val ∧ (i 1).val < win1_3.index ⟨(i 0).val / 5000, ht⟩ 1 * 128 + 128
    rw [e31]; omega

/-- The second region's output array after the region: the combination of the arrays it was entered with. -/
theorem final (c : Dev nD) :
    (dat1 V c).arrAt 3 cfg1.N = Spec.combine (V c main_v32) (V c main_v31) (V c main_v11) :=
  (dat1 V c).arrAt_eq_of_cover 3 _ (fun t _ => flushed_eq V c t) cover

end Cert.KernelIdeal.Combine

end
-- ==== Proof.RefSide.lean ====
/-
  The reference program's result, read one host operation at a time, as the specification's functions.

  The reference computes `h = x·Wᵀ + b` by one matrix product over all 100000 rows, the inverse square-root degree
  `d` from a scatter-add of ones over the edges' source rows, the aggregated messages from a gather of `d` and `h` at the
  edges' target rows scattered back onto the source rows, and `d·agg + (d·d)·h` entry by entry. Only the first and the
  last step are opened here: the aggregation is carried as one function `aggOf` of the edge list and of `h`, and `d` as the
  reference's own stage; both programs apply the same host operations there.
-/
import proofs.«152773_j19902878450413_1_alg».proof.Proof.Gen.ReferenceIdeal.Read
import proofs.«152773_j19902878450413_1_alg».proof.Proof.Spec
import proofs.«152773_j19902878450413_1_alg».proof.Proof.LibKeepdims
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The aggregated messages as a function of the edge list `e` and the projected features `h`: the products
    `d[col]·h[col]` over the edges, scatter-added onto the rows `row`. -/
def aggOf (e : (⟨S2x1600000, .i32⟩ : BufTy).Contents (Elt Ideal)) (h : (⟨S100000x128, .f32⟩ : BufTy).Contents (Elt Ideal)) :
    (⟨S100000x128, .f32⟩ : BufTy).Contents (Elt Ideal) :=
  (Host.scatterAdd (F := Ideal) (φ := .f32) scatter_S100000x128_S1600000x1_S1600000x128_1_0_0_1
    (val_main_v31 (F := Ideal) : FVec Ideal S100000x128 .f32) (val_main_v32 (F := Ideal) e : IVec S1600000x1 32)
    (mulf (F := Ideal) (φ := .f32) (val_main_v29 (F := Ideal) e : FVec Ideal S1600000x128 .f32)
      (Host.gather gather_S100000x128_S1600000x1_S1600000x128_1_0_n_n_0_1_1128 (h : Vec Ideal S100000x128 .f32) (val_main_v27 (F := Ideal) e : IVec S1600000x1 32)))
    : FVec Ideal S100000x128 .f32)

/-- The reference's aggregation stage is `aggOf` of its own projected features. -/
theorem agg_eq (x0 : (⟨S100000x128, .f32⟩ : BufTy).Contents (Elt Ideal)) (e : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v33 (F := Ideal) x0 e x2 x3 = aggOf e (val_main_v13 (F := Ideal) x0 x2 x3) := rfl

/-- The bias as the one-row matrix the kernel's program stages. -/
def biasRow (x3 : (⟨S128, .f32⟩ : BufTy).Contents (Elt Ideal)) : (⟨S1x128, .f32⟩ : BufTy).Contents (Elt Ideal) :=
  shapeCast S1x128 x3 (by decide)

/-- The inverse square-root degrees as the column the kernel's program stages. -/
def scaleCol (e : (⟨S2x1600000, .i32⟩ : BufTy).Contents (Elt Ideal)) : (⟨S100000x1, .f32⟩ : BufTy).Contents (Elt Ideal) :=
  shapeCast S100000x1 (val_main_v8 (F := Ideal) e) (by decide)

/-- The reference's projected features are the specification's projection of the features, the transposed weights and
    the bias row: its matrix product read at an entry is the same sum, its twice-broadcast bias the bias row's entry. -/
theorem proj_eq (x0 : (⟨S100000x128, .f32⟩ : BufTy).Contents (Elt Ideal))
    (x2 : (⟨S128x128, .f32⟩ : BufTy).Contents (Elt Ideal)) (x3 : (⟨S128, .f32⟩ : BufTy).Contents (Elt Ideal)) :
    val_main_v13 (F := Ideal) x0 x2 x3 = Spec.proj x0 (val_main_v9 (F := Ideal) x2) (biasRow x3) := by
  funext i
  obtain ⟨r, q, rfl⟩ : ∃ (r : Fin 100000) (q : Fin 128), i = ix2 r q := ⟨i 0, i 1, eq_ix2 i⟩
  rw [val_main_v13_apply, val_main_v10_apply, val_main_v12_apply, val_main_v11_apply]
  show _ = Spec.projAt x0 (val_main_v9 (F := Ideal) x2) (biasRow x3) r q
  unfold Spec.projAt biasRow
  have el : ∀ k : Fin 128, lidx_main_v10 (ix2 r q) k = ix2 r k := fun k =>
    funext fun a => Fin.ext (by match a with | ⟨0, _⟩ => rfl | ⟨1, _⟩ => rfl)
  have er : ∀ k : Fin 128, ridx_main_v10 (ix2 r q) k = ix2 k q := fun k =>
    funext fun a => Fin.ext (by match a with | ⟨0, _⟩ => rfl | ⟨1, _⟩ => rfl)
  have eb : idx_main_v11 (idx_main_v12 (ix2 r q)) = ix1 q :=
    funext fun a => Fin.ext (by match a with | ⟨0, _⟩ => rfl)
  rw [shapeCast_a_1a_apply, eb]
  refine congrArg₂ (· + ·) (Finset.sum_congr rfl fun k _ => ?_) rfl
  rw [el k, er k]

/-- The reference's result is the specification's combination of the scale column, the aggregated messages and the
    projected features. -/
theorem out_eq (x0 : (⟨S100000x128, .f32⟩ : BufTy).Contents (Elt Ideal)) (e : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v41 (F := Ideal) x0 e x2 x3
      = Spec.combine (scaleCol e) (aggOf e (val_main_v13 (F := Ideal) x0 x2 x3)) (val_main_v13 (F := Ideal) x0 x2 x3) := by
  funext i
  obtain ⟨r, q, rfl⟩ : ∃ (r : Fin 100000) (q : Fin 128), i = ix2 r q := ⟨i 0, i 1, eq_ix2 i⟩
  rw [val_main_v41_apply, val_main_v36_apply, val_main_v40_apply, val_main_v35_apply, val_main_v34_apply,
    val_main_v39_apply, val_main_v38_apply, val_main_v37_apply, agg_eq]
  show _ = Spec.combineAt (scaleCol e) (aggOf e (val_main_v13 (F := Ideal) x0 x2 x3)) (val_main_v13 (F := Ideal) x0 x2 x3) r q
  unfold Spec.combineAt scaleCol
  have e1 : idx_main_v34 (idx_main_v35 (ix2 r q)) = ix1 r :=
    funext fun a => Fin.ext (by match a with | ⟨0, _⟩ => rfl)
  have e2 : idx_main_v38 (idx_main_v39 (ix2 r q)) = ix1 r :=
    funext fun a => Fin.ext (by match a with | ⟨0, _⟩ => rfl)
  rw [shapeCast_a_a1_apply, e1, e2]
  rfl

end Cert.ReferenceIdeal.RefValue

end
-- ==== Proof.HostSide.lean ====
/-
  The kernel program's host operations around its two regions, read as values, and with them the program's result.

  Before the first region the host computes the inverse square-root degrees `d` from the edges' source rows, transposes
  the weights and reshapes the bias into a row; the region leaves the projection `h` (`Linear.final`). Between the
  regions the host gathers `d` and `h` at the edges' target rows, multiplies, scatter-adds onto the source rows, and
  reshapes `d` into a column; the second region leaves `d·agg + (d·d)·h` (`Combine.final`). The host operations are the
  reference's own, so each staged array is stated as the reference's stage of the same name, and the aggregation as the
  one function `aggOf` of the edge list and `h`.
-/
import proofs.«152773_j19902878450413_1_alg».proof.Proof.Gen.KernelIdeal.Frame
import proofs.«152773_j19902878450413_1_alg».proof.Proof.Linear
import proofs.«152773_j19902878450413_1_alg».proof.Proof.Combine
import proofs.«152773_j19902878450413_1_alg».proof.Proof.RefSide
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results

/-- The edges' source rows. -/
theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results
  rfl

/-- The edges' target rows. -/
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rfl

/-- The inverse square-root degrees. -/
theorem W1_v8 (c : Dev nD) : W1 m ρ c (Proc.devRef .tc main_v8) = Cert.ReferenceIdeal.Read.val_main_v8 (F := Ideal) (m ((c : Thread nD τ).loc main_arg1)) := by
  show StableHlo.after hostOps0 (W0 m ρ c) (Proc.devRef .tc main_v8) = _
  dsimp only [hostOps0]
  after_results
  rfl

/-- The transposed weights. -/
theorem W1_v9 (c : Dev nD) : W1 m ρ c (Proc.devRef .tc main_v9) = Cert.ReferenceIdeal.Read.val_main_v9 (F := Ideal) (m ((c : Thread nD τ).loc main_arg2)) := by
  show StableHlo.after hostOps0 (W0 m ρ c) (Proc.devRef .tc main_v9) = _
  dsimp only [hostOps0]
  after_results
  rfl

/-- The bias as a one-row matrix. -/
theorem W1_v10 (c : Dev nD) : W1 m ρ c (Proc.devRef .tc main_v10) = Cert.ReferenceIdeal.RefValue.biasRow (m ((c : Thread nD τ).loc main_arg3)) := by
  show StableHlo.after hostOps0 (W0 m ρ c) (Proc.devRef .tc main_v10) = _
  dsimp only [hostOps0]
  after_results
  rfl

/-! ## After the first region -/

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v8 (c : Dev nD) : W2 m ρ c (Proc.devRef .tc main_v8) = Cert.ReferenceIdeal.Read.val_main_v8 (F := Ideal) (m ((c : Thread nD τ).loc main_arg1)) :=
  (W2_of_ne m ρ c main_v8 (by decide)).trans (W1_v8 m ρ c)

/-- The projected features the first region leaves. -/
def hOf (c : Dev nD) : (⟨S100000x128, .f32⟩ : BufTy).Contents (Elt Ideal) :=
  Spec.proj (m ((c : Thread nD τ).loc main_arg0)) (Cert.ReferenceIdeal.Read.val_main_v9 (F := Ideal) (m ((c : Thread nD τ).loc main_arg2)))
    (Cert.ReferenceIdeal.RefValue.biasRow (m ((c : Thread nD τ).loc main_arg3)))

theorem W2_v11 (c : Dev nD) : W2 m ρ c (Proc.devRef .tc main_v11) = hOf m c := by
  refine (W2_arr m ρ c 3).trans ((Linear.final (V1 m ρ) c).trans ?_)
  rw [show V1 m ρ c main_arg0 = _ from W1_arg0 m ρ c, show V1 m ρ c main_v9 = _ from W1_v9 m ρ c,
    show V1 m ρ c main_v10 = _ from W1_v10 m ρ c]
  rfl

/-! ## Between the regions -/

theorem W3_v11 (c : Dev nD) : W3 m ρ c (Proc.devRef .tc main_v11) = hOf m c := by
  show StableHlo.after hostOps1 (W2 m ρ c) (Proc.devRef .tc main_v11) = _
  dsimp only [hostOps1]
  after_results
  exact W2_v11 m ρ c

/-- The inverse square-root degrees as a column. -/
theorem W3_v32 (c : Dev nD) : W3 m ρ c (Proc.devRef .tc main_v32) = Cert.ReferenceIdeal.RefValue.scaleCol (m ((c : Thread nD τ).loc main_arg1)) := by
  show StableHlo.after hostOps1 (W2 m ρ c) (Proc.devRef .tc main_v32) = _
  dsimp only [hostOps1]
  after_results
  rw [W2_v8]
  rfl

set_option maxHeartbeats 2000000 in
/-- The aggregated messages. -/
theorem W3_v31 (c : Dev nD) : W3 m ρ c (Proc.devRef .tc main_v31) = Cert.ReferenceIdeal.RefValue.aggOf (m ((c : Thread nD τ).loc main_arg1)) (hOf m c) := by
  show StableHlo.after hostOps1 (W2 m ρ c) (Proc.devRef .tc main_v31) = _
  dsimp only [hostOps1]
  after_results_simp
  rw [W2_v1, W2_v3, W2_v8, W2_v11]
  rfl

/-! ## The result -/

/-- The program's result array: the combination of the scale column, the aggregated messages and the projection. -/
def outOf (c : Dev nD) : (⟨S100000x128, .f32⟩ : BufTy).Contents (Elt Ideal) :=
  Spec.combine (Cert.ReferenceIdeal.RefValue.scaleCol (m ((c : Thread nD τ).loc main_arg1))) (Cert.ReferenceIdeal.RefValue.aggOf (m ((c : Thread nD τ).loc main_arg1)) (hOf m c)) (hOf m c)

/-- What the second region's write-backs leave in the result array. -/
theorem result_eq (c : Dev nD) : (dat1 (V3 m ρ) c).arrAt 3 cfg1.N = outOf m c := by
  refine (Combine.final (V3 m ρ) c).trans ?_
  rw [show V3 m ρ c main_v32 = _ from W3_v32 m ρ c, show V3 m ρ c main_v31 = _ from W3_v31 m ρ c,
    show V3 m ρ c main_v11 = _ from W3_v11 m ρ c]
  rfl

end Cert.KernelIdeal.HostSide

end
-- ==== Proof.lean ====
/-
  A graph-convolution layer: `out = d·agg + (d·d)·h` with `h = x·Wᵀ + b` the projected node features, `d` the inverse
  square root of each node's out-degree (a scatter-add of ones over the edges' source rows), and `agg` the messages
  `d[col]·h[col]` scatter-added onto the source rows. The kernel program computes `h` and the final combination in two
  row-blocked kernel regions (20 blocks of 5000 rows each) and everything between them on the host; the reference is
  host operations only.

  Over the extended reals the two programs are the same function of the arguments, with no algebraic law beyond
  reading each side entry by entry: the blocked matrix product into a zero accumulator is the reference's product over
  all rows (the change of float format before it is the identity), the bias row broadcast over a block is the bias
  broadcast over the array, and the combination is the same three products and one sum. The degrees and the
  aggregation are the same host operations on both sides and are never opened. No finiteness of the inputs is used.

  * the frames of the two kernel programs are the generated ones; the reference's frame is its generated run;
  * `preserves` has no entry (the idealization rewrote nothing);
  * `algebraic`: the kernel program's run with its result named (`Whole.run_main`), the two regions read as values
    (`Linear.final`, `Combine.final`) through the host operations around them (`HostSide.result_eq`), against the
    reference's run read through its stages (`RefValue.out_eq`, `RefValue.proj_eq`).
-/
import proofs.«152773_j19902878450413_1_alg».proof.Defs
import proofs.«152773_j19902878450413_1_alg».proof.Proof.Gen.Kernel
import proofs.«152773_j19902878450413_1_alg».proof.Proof.Gen.Kernel.Frame
import proofs.«152773_j19902878450413_1_alg».proof.Proof.Gen.KernelIdeal
import proofs.«152773_j19902878450413_1_alg».proof.Proof.Gen.KernelIdeal.Frame
import proofs.«152773_j19902878450413_1_alg».proof.Proof.Gen.ReferenceIdeal
import proofs.«152773_j19902878450413_1_alg».proof.Proof.Gen.ReferenceIdeal.Run
import proofs.«152773_j19902878450413_1_alg».proof.Proof.Gen.ReferenceIdeal.Read
import proofs.«152773_j19902878450413_1_alg».proof.Proof.Gen.Pre_finite_inputs
import proofs.«152773_j19902878450413_1_alg».proof.Proof.KernelRun
import proofs.«152773_j19902878450413_1_alg».proof.Proof.HostSide
import proofs.«152773_j19902878450413_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `d·aggOf(edges, h) + (d·d)·h`, `h` the projection of the arguments. -/
theorem algebraic : Cert.algebraic_KernelIdeal_ReferenceIdeal := by
  intro m ρ m' ρ' _ hagree
  refine ⟨fun c => Cert.KernelIdeal.HostSide.outOf m c, ?_, ?_⟩
  · exact (θ_run Cert.KernelIdeal.defs _ _).mono
      (fun r h c => ⟨(h c).1.trans (Cert.KernelIdeal.HostSide.result_eq m ρ c), (h c).2⟩)
      (Cert.KernelIdeal.Whole.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, Cert.ReferenceIdeal.RefValue.out_eq, Cert.ReferenceIdeal.RefValue.proj_eq,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
